-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x369 : Shape := ⟨2, ![100000, 369]⟩
abbrev S64x369 : Shape := ⟨2, ![64, 369]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x369 : S_.BroadcastsInDim S100000x369 (![] : Fin 0 → Fin S100000x369.rank)
  reducesTo_S100000x369_S_d0_1 : S100000x369.ReducesTo [0, 1] S_
  h_S_ : 0 < S_.numel
  bcast_S_S64x369 : S_.BroadcastsInDim S64x369 (![] : Fin 0 → Fin S64x369.rank)
  reducesTo_S64x369_S_d0_1 : S64x369.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x369 .f32) (main_arg1 : FVec F S64x369 .f32) (main_arg2 : FVec F S64 .f32) (main_arg3 : FVec F S2x64 .f32) (main_arg4 : FVec F S2 .f32) : IVec S_ 1 :=
  let main_v0 : FVec F S100000x369 .f32 := Host.absf main_arg0
  let main_cst : FVec F S_ .f32 := constant S_ .f32 0x7F800000#32
  let main_v1 : FVec F S100000x369 .f32 := broadcastInDim S100000x369 ![] bcast_S_S100000x369 main_cst
  let main_v2 : IVec S100000x369 1 := cmpf .olt main_v0 main_v1
  let main_c : IVec S_ 1 := constantI S_ 1 1#1
  let main_v3 : IVec S_ 1 := (fun x v => Host.reduce IntOp.andi x v reducesTo_S100000x369_S_d0_1 h_S_) main_v2 main_c
  let main_v4 : FVec F S64x369 .f32 := Host.absf main_arg1
  let main_cst_0 : FVec F S_ .f32 := constant S_ .f32 0x7F800000#32
  let main_v5 : FVec F S64x369 .f32 := broadcastInDim S64x369 ![] bcast_S_S64x369 main_cst_0
  let main_v6 : IVec S64x369 1 := cmpf .olt main_v4 main_v5
  let main_c_1 : IVec S_ 1 := constantI S_ 1 1#1
  let main_v7 : IVec S_ 1 := (fun x v => Host.reduce IntOp.andi x v reducesTo_S64x369_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x64 .f32 := Host.absf main_arg3
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg4 main_v13 main_v16
-- ==== Kernel.lean ====
abbrev S100000x369 : Shape := ⟨2, ![100000, 369]⟩
abbrev S64x369 : Shape := ⟨2, ![64, 369]⟩
abbrev S64 : Shape := ⟨1, ![64]⟩
abbrev S2x64 : Shape := ⟨2, ![2, 64]⟩
abbrev S2 : Shape := ⟨1, ![2]⟩
abbrev S369x100000 : Shape := ⟨2, ![369, 100000]⟩
abbrev S64x1 : Shape := ⟨2, ![64, 1]⟩
abbrev S2x1 : Shape := ⟨2, ![2, 1]⟩
abbrev S2x100000 : Shape := ⟨2, ![2, 100000]⟩
abbrev S369x2048 : Shape := ⟨2, ![369, 2048]⟩
abbrev S2x2048 : Shape := ⟨2, ![2, 2048]⟩
abbrev S64x2048 : Shape := ⟨2, ![64, 2048]⟩
abbrev S100000x2 : Shape := ⟨2, ![100000, 2]⟩

abbrev nBuf : Space → Nat
  | .hbm => 10
  | .vmem => 8
  | .smem => 0
  | _ => 0

abbrev bufTy : (tb : Table) → Fin (tcTables nBuf tb) → BufTy
  | .hbm, ⟨0, _⟩ => ⟨S100000x369, .f32⟩
  | .hbm, ⟨1, _⟩ => ⟨S64x369, .f32⟩
  | .hbm, ⟨2, _⟩ => ⟨S64, .f32⟩
  | .hbm, ⟨3, _⟩ => ⟨S2x64, .f32⟩
  | .hbm, ⟨4, _⟩ => ⟨S2, .f32⟩
  | .hbm, ⟨5, _⟩ => ⟨S369x100000, .f32⟩
  | .hbm, ⟨6, _⟩ => ⟨S64x1, .f32⟩
  | .hbm, ⟨7, _⟩ => ⟨S2x1, .f32⟩
  | .hbm, ⟨8, _⟩ => ⟨S2x100000, .f32⟩
  | .hbm, ⟨9, _⟩ => ⟨S100000x2, .f32⟩
  | .local _ .vmem, ⟨0, _⟩ => ⟨S369x2048, .f32⟩
  | .local _ .vmem, ⟨1, _⟩ => ⟨S369x2048, .f32⟩
  | .local _ .vmem, ⟨2, _⟩ => ⟨S64x369, .f32⟩
  | .local _ .vmem, ⟨3, _⟩ => ⟨S64x1, .f32⟩
  | .local _ .vmem, ⟨4, _⟩ => ⟨S2x64, .f32⟩
  | .local _ .vmem, ⟨5, _⟩ => ⟨S2x1, .f32⟩
  | .local _ .vmem, ⟨6, _⟩ => ⟨S2x2048, .f32⟩
  | .local _ .vmem, ⟨7, _⟩ => ⟨S2x2048, .f32⟩
  | _, _ => ⟨S100000x369, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S369x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x369 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S100000x369_S369x100000_1_0 : S100000x369.Transposes [1, 0] S369x100000
  shapeCasts_S64_S64x1 : S64.ShapeCasts S64x1
  shapeCasts_S2_S2x1 : S2.ShapeCasts S2x1
  inb_S369x2048_S369x2048_0_0 : ∀ a, (![0, 0] : Fin 2 → Nat) a + S369x2048.size a ≤ S369x2048.size a
  h_S369x2048 : 0 < S369x2048.numel
  shapeCasts_S369x2048_S369x2048 : S369x2048.ShapeCasts S369x2048
  bitsLt_bf16_f32 : FTy.bits .bf16 < FTy.bits .f32
  inb_S64x369_S64x369_0_0 : ∀ a, (![0, 0] : Fin 2 → Nat) a + S64x369.size a ≤ S64x369.size a
  h_S64x369 : 0 < S64x369.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x2048 : S64x1.Broadcasts S64x2048
  inb_S2x64_S2x64_0_0 : ∀ a, (![0, 0] : Fin 2 → Nat) a + S2x64.size a ≤ S2x64.size a
  h_S2x64 : 0 < S2x64.numel
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x2048 : S2x1.Broadcasts S2x2048
  inb_S2x2048_S2x2048_0_0 : ∀ a, (![0, 0] : Fin 2 → Nat) a + S2x2048.size a ≤ S2x2048.size a
  h_S2x2048 : 0 < S2x2048.numel
  transposes_S2x100000_S100000x2_1_0 : S2x100000.Transposes [1, 0] S100000x2
  dot_S64x369_S369x2048_S64x2048_1_0_0_1_n_n_wf : DotDims.WF S64x369 S369x2048 S64x2048 [1] [0] [0] [1] [] []
  dot_S2x64_S64x2048_S2x2048_1_0_0_1_n_n_wf : DotDims.WF S2x64 S64x2048 S2x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S369x2048.size a < S369x100000.size a
  hwx0_0 : ∀ i : grid0.Coords, EltTy.bits .f32 = 32 ∨ (Rect.unit (s := S369x100000) (fun a => cc0_transform_0 i a * S369x2048.size a) (fun a => (Pipeline.Clip.of (cc0_transform_0 i a) (S369x2048.size a) (S369x100000.size a)).extent (S369x2048.size a)) fun a => Pipeline.Clip.inb (Pipeline.Clip.ok_of (hstart0_0 i a))).WholeWords (EltTy.packing .f32)
  hwxs0_0 : ∀ i : grid0.Coords, EltTy.bits .f32 = 32 ∨ (Rect.unit (s := S369x2048) (fun _ => 0) (fun a => (Pipeline.Clip.of (cc0_transform_0 i a) (S369x2048.size a) (S369x100000.size a)).extent (S369x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x369.size a ≤ S64x369.size a
  hwx0_1 : ∀ i : grid0.Coords, EltTy.bits .f32 = 32 ∨ (Rect.block (s := S64x369) S64x369.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64.size a ≤ S2x64.size a
  hwx0_3 : ∀ i : grid0.Coords, EltTy.bits .f32 = 32 ∨ (Rect.block (s := S2x64) S2x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1.size a ≤ S2x1.size a
  hwx0_4 : ∀ i : grid0.Coords, EltTy.bits .f32 = 32 ∨ (Rect.block (s := S2x1) S2x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S2x2048.size a < S2x100000.size a
  hwx0_5 : ∀ i : grid0.Coords, EltTy.bits .f32 = 32 ∨ (Rect.unit (s := S2x100000) (fun a => cc0_transform_5 i a * S2x2048.size a) (fun a => (Pipeline.Clip.of (cc0_transform_5 i a) (S2x2048.size a) (S2x100000.size a)).extent (S2x2048.size a)) fun a => Pipeline.Clip.inb (Pipeline.Clip.ok_of (hstart0_5 i a))).WholeWords (EltTy.packing .f32)
  hwxs0_5 : ∀ i : grid0.Coords, EltTy.bits .f32 = 32 ∨ (Rect.unit (s := S2x2048) (fun _ => 0) (fun a => (Pipeline.Clip.of (cc0_transform_5 i a) (S2x2048.size a) (S2x100000.size a)).extent (S2x2048.size a)) fun a => (Nat.zero_add _).trans_le (Pipeline.Clip.extent_le (Pipeline.Clip.ok_of (hstart0_5 i a)))).WholeWords (EltTy.packing .f32)

variable [Facts₀]

def dot_S64x369_S369x2048_S64x2048_1_0_0_1_n_n : DotDims S64x369 S369x2048 S64x2048 where
  lhsContracting := [1]
  rhsContracting := [0]
  lhsNonContracting := [0]
  rhsNonContracting := [1]
  lhsBatch := []
  rhsBatch := []
  wf := dot_S64x369_S369x2048_S64x2048_1_0_0_1_n_n_wf
def dot_S2x64_S64x2048_S2x2048_1_0_0_1_n_n : DotDims S2x64 S64x2048 S2x2048 where
  lhsContracting := [1]
  rhsContracting := [0]
  lhsNonContracting := [0]
  rhsNonContracting := [1]
  lhsBatch := []
  rhsBatch := []
  wf := dot_S2x64_S64x2048_S2x2048_1_0_0_1_n_n_wf

abbrev win0_0 : Pipeline.Window sig grid0 :=
  Pipeline.Window.ofSpecClip (Memref.whole main_v0) S369x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S64x369.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v3) S2x2048.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x369 : Shape := ⟨2, ![100000, 369]⟩
abbrev S64x369 : Shape := ⟨2, ![64, 369]⟩
abbrev S64 : Shape := ⟨1, ![64]⟩
abbrev S2x64 : Shape := ⟨2, ![2, 64]⟩
abbrev S2 : Shape := ⟨1, ![2]⟩
abbrev S369x64 : Shape := ⟨2, ![369, 64]⟩
abbrev S100000x64 : Shape := ⟨2, ![100000, 64]⟩
abbrev S1x64 : Shape := ⟨2, ![1, 64]⟩
abbrev S_ : Shape := ⟨0, ![]⟩
abbrev S64x2 : Shape := ⟨2, ![64, 2]⟩
abbrev S100000x2 : Shape := ⟨2, ![100000, 2]⟩
abbrev S1x2 : Shape := ⟨2, ![1, 2]⟩

abbrev nBuf : Space → Nat
  | .hbm => 18
  | .vmem => 0
  | .smem => 0
  | _ => 0

abbrev bufTy : (tb : Table) → Fin (tcTables nBuf tb) → BufTy
  | .hbm, ⟨0, _⟩ => ⟨S100000x369, .f32⟩
  | .hbm, ⟨1, _⟩ => ⟨S64x369, .f32⟩
  | .hbm, ⟨2, _⟩ => ⟨S64, .f32⟩
  | .hbm, ⟨3, _⟩ => ⟨S2x64, .f32⟩
  | .hbm, ⟨4, _⟩ => ⟨S2, .f32⟩
  | .hbm, ⟨5, _⟩ => ⟨S369x64, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S_, .f32⟩
  | .hbm, ⟨11, _⟩ => ⟨S100000x64, .f32⟩
  | .hbm, ⟨12, _⟩ => ⟨S100000x64, .f32⟩
  | .hbm, ⟨13, _⟩ => ⟨S64x2, .f32⟩
  | .hbm, ⟨14, _⟩ => ⟨S100000x2, .f32⟩
  | .hbm, ⟨15, _⟩ => ⟨S1x2, .f32⟩
  | .hbm, ⟨16, _⟩ => ⟨S100000x2, .f32⟩
  | .hbm, ⟨17, _⟩ => ⟨S100000x2, .f32⟩
  | _, _ => ⟨S100000x369, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  transposes_S64x369_S369x64_1_0 : S64x369.Transposes [1, 0] S369x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x369_S369x64_S100000x64_1_0_0_1_n_n_wf : DotDims.WF S100000x369 S369x64 S100000x64 [1] [0] [0] [1] [] []
  dot_S100000x64_S64x2_S100000x2_1_0_0_1_n_n_wf : DotDims.WF S100000x64 S64x2 S100000x2 [1] [0] [0] [1] [] []

variable [Facts₀]

def dot_S100000x369_S369x64_S100000x64_1_0_0_1_n_n : DotDims S100000x369 S369x64 S100000x64 where
  lhsContracting := [1]
  rhsContracting := [0]
  lhsNonContracting := [0]
  rhsNonContracting := [1]
  lhsBatch := []
  rhsBatch := []
  wf := dot_S100000x369_S369x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.BodyRunBits.lean ====
/-
  One run of the kernel body on whatever its six staging buffers hold.

  The body loads the input slab, the two weight matrices and the two bias columns whole, computes, loads the
  output buffer (a value it never uses) and stores the computed `[2, 2048]` block over the whole output buffer.
  So from input buffers holding `x0 … x4` it ends with those five unchanged and the output's buffer holding the
  body's pure function of `x0 … x4`: whatever the slab's buffer held past the array's end is carried into that
  function and nowhere else.
-/
import proofs.«104592_g42580305772673_cont_8to1_b_1666_20_alg».proof.Proof.Gen.Kernel.Launch
import proofs.«104592_g42580305772673_cont_8to1_b_1666_20_alg».proof.Proof.Gen.Kernel.Skeleton
import proofs.«104592_g42580305772673_cont_8to1_b_1666_20_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.BodyRun

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rSlab : Rect S369x2048 := Rect.unit (s := S369x2048) ![0, 0] S369x2048.size inb_S369x2048_S369x2048_0_0
abbrev rW1 : Rect S64x369 := Rect.unit (s := S64x369) ![0, 0] S64x369.size inb_S64x369_S64x369_0_0
abbrev rB1 : Rect S64x1 := Rect.unit (s := S64x1) ![0, 0] S64x1.size inb_S64x1_S64x1_0_0
abbrev rWo : Rect S2x64 := Rect.unit (s := S2x64) ![0, 0] S2x64.size inb_S2x64_S2x64_0_0
abbrev rBo : Rect S2x1 := Rect.unit (s := S2x1) ![0, 0] S2x1.size inb_S2x1_S2x1_0_0
abbrev rOut : Rect S2x2048 := Rect.unit (s := S2x2048) ![0, 0] S2x2048.size inb_S2x2048_S2x2048_0_0

theorem zero_offsets : (![0, 0] : Fin 2 → Nat) = fun _ => 0 := funext fun a => by fin_cases a <;> rfl

/-- The output buffer after the body's one store, as the stores' pieces laid over one another. -/
def stored (x0 : Vec F S369x2048 .f32) (x1 : Vec F S64x369 .f32) (x2 : Vec F S64x1 .f32) (x3 : Vec F S2x64 .f32)
    (x4 : Vec F S2x1 .f32) : Vec F S2x2048 .f32 :=
  View.canon [⟨rOut, k0_pay1 (View.ld x0 rSlab) (View.ld x1 rW1) (View.ld x2 rB1) (View.ld x3 rWo) (View.ld x4 rBo)⟩]

/-- The one store covers the whole buffer. -/
theorem stored_cover (p0 : Vec F S2x2048 .f32) (y : S2x2048.Idx) :
    ∃ pc ∈ ([⟨rOut, p0⟩] : List (View.Piece (Elt F) S2x2048 .f32)), y ∈ pc.1.set :=
  View.cover_of_tiled [⟨rOut, p0⟩] S2x2048.size (by rfl) y

/-- A whole-buffer store of a value computed from whole-buffer loads leaves that value of the buffers' contents. -/
theorem stored_eq (x0 : Vec F S369x2048 .f32) (x1 : Vec F S64x369 .f32) (x2 : Vec F S64x1 .f32) (x3 : Vec F S2x64 .f32)
    (x4 : Vec F S2x1 .f32) : stored x0 x1 x2 x3 x4 = k0_pay1 x0 x1 x2 x3 x4 := by
  unfold stored
  rw [View.canon_unit_zero zero_offsets]
  simp only [View.ld_unit_zero (S := S369x2048) zero_offsets, View.ld_unit_zero (S := S64x369) zero_offsets,
    View.ld_unit_zero (S := S64x1) zero_offsets, View.ld_unit_zero (S := S2x64) zero_offsets,
    View.ld_unit_zero (S := S2x1) zero_offsets]

/-! ## The body's triple -/

set_option maxHeartbeats 1000000 in
/-- The body on whole staging memrefs, the inputs' at contents `x0 … x4` and the output's at anything: it runs to
    the continuation with the inputs' as they were and the output's at the body's function of them. -/
theorem sound_kernel (c : Dev nD) (E : Set ℕ) (i : grid0.Coords)
    (arg1 : Memref sig .tc .vmem S369x2048 .f32) (harg1 : arg1.IsWhole) (arg2 : Memref sig .tc .vmem S64x369 .f32) (harg2 : arg2.IsWhole)
    (arg3 : Memref sig .tc .vmem S64x1 .f32) (harg3 : arg3.IsWhole) (arg4 : Memref sig .tc .vmem S2x64 .f32) (harg4 : arg4.IsWhole)
    (arg5 : Memref sig .tc .vmem S2x1 .f32) (harg5 : arg5.IsWhole) (arg6 : Memref sig .tc .vmem S2x2048 .f32) (harg6 : arg6.IsWhole)
    (x0 : Vec F S369x2048 .f32) (x1 : Vec F S64x369 .f32) (x2 : Vec F S64x1 .f32) (x3 : Vec F S2x64 .f32) (x4 : Vec F S2x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay1 x0 x1 x2 x3 x4)) -∗ K ⟨⟩))
      ⊢ wp frame (wpE (defs₀ (F := F)) Variants.none c none) E
          (cc0__mlp_block i arg1 harg1 arg2 harg2 arg3 harg3 arg4 harg4 arg5 harg5 arg6 harg6) K := by
  simp only [cc0__mlp_block_eq_skeleton]; unfold cc0__mlp_block_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (stored_cover _)).trans (stored_eq _ _ _ _ _)

end Cert.Kernel.BodyRun

end
-- ==== Proof.FrameBits.lean ====
/-
  The frame of the word-level program: every weakly fair run of @main terminates and the five argument arrays end
  holding what they held at launch.

  @main transposes `x` into a `[369, 100000]` slab array, reshapes the two bias vectors into columns, runs one kernel
  region over a grid of 49 points, and transposes the region's `[2, 100000]` result. The region stages six windows:
  window 0, the `[369, 2048]` column block of the slab array at the point; windows 1 to 4, the two weight matrices
  and the two bias columns, whole, fetched once; window 5, the `[2, 2048]` column block of the result. Since
  100000 = 48 · 2048 + 1696, the last point's blocks of windows 0 and 5 overhang their arrays by 352 columns: the
  transfers are cut at the array's end, and the staging buffer's last 352 columns then hold words nothing names.

  The body feeds the whole slab buffer to the matrix unit, which at the word level is opaque in its whole operand,
  so what the body leaves in the output buffer is a function of those unnamed words too. The frame therefore says
  NOTHING of window 5: it is handed to the body at any contents and taken back at any contents. Of the inputs it says
  what a frame needs: each input buffer is found holding its block (window 0's filled out past the array's end with
  some words `d`) and is left as found. The argument arrays are then read off the run's post: `main_arg1` and
  `main_arg3` are the arrays of the input windows 1 and 3, which no transfer writes; `main_arg0`, `main_arg2` and
  `main_arg4` bypass the region, and the one host operation after it writes only its own result buffer.
-/
import proofs.«104592_g42580305772673_cont_8to1_b_1666_20_alg».proof.Proof.Gen.Kernel.Frame
import proofs.«104592_g42580305772673_cont_8to1_b_1666_20_alg».proof.Proof.BodyRunBits

set_option maxRecDepth 16384

noncomputable section

namespace Cert.Kernel.FrameProof

open Cert.Kernel Cert.Kernel.Gen Cert.Kernel.BodyRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the one pipeline on core `c`: the arrays as the region finds them; after the body at point
    `t` each input's buffer at its block — the slab's block filled out past the array's end with the zero word, a
    filler the obligation of a cut window never reads —; the output's buffer at a constant nothing reads (the window
    is forgotten); the class's invariant, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => iblk m c 3 t
    | ⟨4, _⟩ => iblk m c 4 t
    | ⟨5, _⟩ => fun _ => Scalar.ofBits .f32 0#32
  Φ _ := Pipeline.ΦA spec0 c
  q _ := fullShare
  owed _ := 0

/-- The windows the frame says nothing of: the output window alone. -/
abbrev forgets : Fin cfg0.W → Bool := fun
  | ⟨5, _⟩ => true
  | _ => false

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) :
    (dats m 0 c).after 0 t = win0_0.fill (grid0.coords t) (fun _ => Scalar.ofBits .f32 0#32) (iblk m c 0 t) := by
  dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- What the body finds. The slab's window is fetched at every point, so its buffer holds the array's block on the
    columns inside the array and `d` past its end; -/
theorem before0_0 (c : Dev nD) (t : Fin cfg0.N) (d) :
    (dats m 0 c).before 0 t d = win0_0.fill (grid0.coords t) d (iblk m c 0 t) := by
  unfold Dat.before; rw [if_pos (fetch0_0 t)]; rfl
/-- the whole-array windows, fetched at the first point only and never written by the body, hold their arrays at
    every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (the library's obligation's precondition, the windows one by one):
    the invariant, what the core owes, each input's current buffer at what it holds there, and the output's at
    anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- and what it returns: the slab's buffer stated on the columns inside the array only (the window is cut), the
    whole-array windows' at their arrays, the output's at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

/-- On the columns inside the array, what the proof data says the body leaves in the slab's buffer is the slab's
    block: the zero filler lies past the array's end. -/
theorem cut_after0_0 (c : Dev nD) (t : Fin cfg0.N) :
    (cfg0.win 0).cut (cfg0.grid.coords t) ((dats m 0 c).after 0 t) = iblk m c 0 t := by
  rw [after0_0]; exact win0_0.cut_fill _ _ _

/-- The body at any point: the inputs' buffers hold their blocks, the slab's filled out with the `d` it was found
    with, so the body's run applies; it leaves the inputs' buffers as it found them — for the slab's, the block
    filled out with that same `d` — and the output's at a value the frame does not name. The invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    cut_after0_0, after0_1, after0_2, after0_3, after0_4]
  iintro ⟨HΦ, Ho, ⟨%d0, H0⟩, ⟨%d1, H1⟩, ⟨%d2, H2⟩, ⟨%d3, H3⟩, ⟨%d4, H4⟩, H5⟩
  iapply (sound_kernel c Set.univ (grid0.coords t) _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  iexists _; iexact H5

/-- The library's body obligation with the output window forgotten, at every point. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

/-- The one buffer the host operation after the region writes: its own result. -/
abbrev T : Finset (Ref sig .tc) := {main_v4}

/-- The line after the region, a transpose of the region's result into `main_v4`, writes `main_v4` alone. -/
theorem sfx_writes : ∀ ops ∈ ([hostOps1] : List (List (HloOp τ sig (Elt F)))), ∀ op ∈ ops,
    ∀ b : Ref sig .tc, Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  exact Finset.mem_singleton.mpr (Proc.devRef_injective _ hb)

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every input array of the pipeline unchanged, nothing
    stated of the result's array, and every other unscoped buffer but `main_v4` at its region-entry contents. -/
theorem run_main : θ_run defs (onTc (τ := τ) (main (F := F))) (s₀ m ρ)
    (Pipeline.RDat.FramePostR (cfgs 0) (fun c => (dats m 0 c).toRForget forgets) T (V m)) :=
  Pipeline.RDat.θ_run_frame_around_T cfgs (0 : Fin 1) launch0 defs₀ Variants.none (fun c => (dats m 0 c).toRForget forgets) T m ρ main
    (hbody := fun c => (body_obligation m c).toRForget) (hshare := fun c => ((dats m 0 c).toRForget forgets).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- info: 'Cert.Kernel.FrameProof.run_main' depends on axioms: [propext, Classical.choice, Quot.sound] -/
#guard_msgs in #print axioms run_main

/-- The run's post read at the argument arrays. `main_arg1` and `main_arg3` are the arrays of the input windows 1 and
    3: the run leaves an input window's array at its region-entry contents, which no host operation before the region
    wrote. `main_arg0`, `main_arg2` and `main_arg4` are read by host operations only and are no window's array: they
    bypass the region, are not the buffer the line after it writes, and so end at their region-entry contents, again
    as launched. -/
theorem args_of_post (r : PUnit × MemSt nD τ sig (Elt F))
    (h : Pipeline.RDat.FramePostR (cfgs 0) (fun c => (dats m 0 c).toRForget forgets) T (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Finset.mem_sdiff.mpr ⟨Pipeline.mem_restRefs_of main_arg0 (by decide) (by decide), by decide⟩)).trans (V_main_arg0 m c),
    (Pipeline.RDat.FramePostR.arr_in h c 1 rfl).trans ((A_eq m c 1).trans (V_main_arg1 m c)),
    ((h c).2 main_arg2 (Finset.mem_sdiff.mpr ⟨Pipeline.mem_restRefs_of main_arg2 (by decide) (by decide), by decide⟩)).trans (V_main_arg2 m c),
    (Pipeline.RDat.FramePostR.arr_in h c 3 rfl).trans ((A_eq m c 3).trans (V_main_arg3 m c)),
    ((h c).2 main_arg4 (Finset.mem_sdiff.mpr ⟨Pipeline.mem_restRefs_of main_arg4 (by decide) (by decide), by decide⟩)).trans (V_main_arg4 m c)⟩

/-- THE FRAME (`Cert.frame_Kernel`'s statement at any `F`): every weakly fair execution of @main terminates and every
    argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_of_post m r h c) (run_main m ρ)

/-- info: 'Cert.Kernel.FrameProof.frame' depends on axioms: [propext, Classical.choice, Quot.sound] -/
#guard_msgs in #print axioms frame

end Cert.Kernel.FrameProof

end
-- ==== Proof.BodyRunIdeal.lean ====
/-
  One run of the kernel body on whatever its six staging buffers hold.

  The body loads the input slab, the two weight matrices and the two bias columns whole, computes, loads the
  output buffer (a value it never uses) and stores the computed `[2, 2048]` block over the whole output buffer.
  So from input buffers holding `x0 … x4` it ends with those five unchanged and the output's buffer holding the
  body's pure function of `x0 … x4`: whatever the slab's buffer held past the array's end is carried into that
  function and nowhere else.
-/
import proofs.«104592_g42580305772673_cont_8to1_b_1666_20_alg».proof.Proof.Gen.KernelIdeal.Launch
import proofs.«104592_g42580305772673_cont_8to1_b_1666_20_alg».proof.Proof.Gen.KernelIdeal.Skeleton
import proofs.«104592_g42580305772673_cont_8to1_b_1666_20_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.BodyRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rSlab : Rect S369x2048 := Rect.unit (s := S369x2048) ![0, 0] S369x2048.size inb_S369x2048_S369x2048_0_0
abbrev rW1 : Rect S64x369 := Rect.unit (s := S64x369) ![0, 0] S64x369.size inb_S64x369_S64x369_0_0
abbrev rB1 : Rect S64x1 := Rect.unit (s := S64x1) ![0, 0] S64x1.size inb_S64x1_S64x1_0_0
abbrev rWo : Rect S2x64 := Rect.unit (s := S2x64) ![0, 0] S2x64.size inb_S2x64_S2x64_0_0
abbrev rBo : Rect S2x1 := Rect.unit (s := S2x1) ![0, 0] S2x1.size inb_S2x1_S2x1_0_0
abbrev rOut : Rect S2x2048 := Rect.unit (s := S2x2048) ![0, 0] S2x2048.size inb_S2x2048_S2x2048_0_0

theorem zero_offsets : (![0, 0] : Fin 2 → Nat) = fun _ => 0 := funext fun a => by fin_cases a <;> rfl

/-- The output buffer after the body's one store, as the stores' pieces laid over one another. -/
def stored (x0 : Vec F S369x2048 .f32) (x1 : Vec F S64x369 .f32) (x2 : Vec F S64x1 .f32) (x3 : Vec F S2x64 .f32)
    (x4 : Vec F S2x1 .f32) : Vec F S2x2048 .f32 :=
  View.canon [⟨rOut, k0_pay1 (View.ld x0 rSlab) (View.ld x1 rW1) (View.ld x2 rB1) (View.ld x3 rWo) (View.ld x4 rBo)⟩]

/-- The one store covers the whole buffer. -/
theorem stored_cover (p0 : Vec F S2x2048 .f32) (y : S2x2048.Idx) :
    ∃ pc ∈ ([⟨rOut, p0⟩] : List (View.Piece (Elt F) S2x2048 .f32)), y ∈ pc.1.set :=
  View.cover_of_tiled [⟨rOut, p0⟩] S2x2048.size (by rfl) y

/-- A whole-buffer store of a value computed from whole-buffer loads leaves that value of the buffers' contents. -/
theorem stored_eq (x0 : Vec F S369x2048 .f32) (x1 : Vec F S64x369 .f32) (x2 : Vec F S64x1 .f32) (x3 : Vec F S2x64 .f32)
    (x4 : Vec F S2x1 .f32) : stored x0 x1 x2 x3 x4 = k0_pay1 x0 x1 x2 x3 x4 := by
  unfold stored
  rw [View.canon_unit_zero zero_offsets]
  simp only [View.ld_unit_zero (S := S369x2048) zero_offsets, View.ld_unit_zero (S := S64x369) zero_offsets,
    View.ld_unit_zero (S := S64x1) zero_offsets, View.ld_unit_zero (S := S2x64) zero_offsets,
    View.ld_unit_zero (S := S2x1) zero_offsets]

/-! ## The body's triple -/

set_option maxHeartbeats 1000000 in
/-- The body on whole staging memrefs, the inputs' at contents `x0 … x4` and the output's at anything: it runs to
    the continuation with the inputs' as they were and the output's at the body's function of them. -/
theorem sound_kernel (c : Dev nD) (E : Set ℕ) (i : grid0.Coords)
    (arg1 : Memref sig .tc .vmem S369x2048 .f32) (harg1 : arg1.IsWhole) (arg2 : Memref sig .tc .vmem S64x369 .f32) (harg2 : arg2.IsWhole)
    (arg3 : Memref sig .tc .vmem S64x1 .f32) (harg3 : arg3.IsWhole) (arg4 : Memref sig .tc .vmem S2x64 .f32) (harg4 : arg4.IsWhole)
    (arg5 : Memref sig .tc .vmem S2x1 .f32) (harg5 : arg5.IsWhole) (arg6 : Memref sig .tc .vmem S2x2048 .f32) (harg6 : arg6.IsWhole)
    (x0 : Vec F S369x2048 .f32) (x1 : Vec F S64x369 .f32) (x2 : Vec F S64x1 .f32) (x3 : Vec F S2x64 .f32) (x4 : Vec F S2x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay1 x0 x1 x2 x3 x4)) -∗ K ⟨⟩))
      ⊢ wp frame (wpE (defs₀ (F := F)) Variants.none c none) E
          (cc0__mlp_block i arg1 harg1 arg2 harg2 arg3 harg3 arg4 harg4 arg5 harg5 arg6 harg6) K := by
  simp only [cc0__mlp_block_eq_skeleton]; unfold cc0__mlp_block_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (stored_cover _)).trans (stored_eq _ _ _ _ _)

end Cert.KernelIdeal.BodyRun

end
-- ==== Proof.Spec.lean ====
/-
  The network both programs compute, stated once over the extended reals and over literal shapes.

  For a row `n` of the input `x : [100000, 369]`, hidden unit `k` is the affine form
  `∑ d, x[n, d] · W1[k, d] + b1[k]` cut below at zero, and output `c` is
  `∑ k, hidden[n, k] · W_out[c, k] + b_out[c]`. The zero of the rectifier is kept as the f32 word both
  programs print, so neither side ever evaluates it. `net` lays the outputs out as `[100000, 2]` (the
  reference's and the kernel's final layout) and `netT` as `[2, 100000]` (the layout the kernel's grid writes,
  one 2048-column slab per point, before the closing transpose).
-/
import Idealize.ShloMosaic.PureOps.Ideal
import Idealize.ShloMosaic.Lib.ValueIdx

noncomputable section

open scoped BigOperators

namespace Cert.Mlp

open Idealize.ShloMosaic Idealize.ShloMosaic.ValueIdx

abbrev SX : Shape := ⟨2, ![100000, 369]⟩
abbrev SW1 : Shape := ⟨2, ![64, 369]⟩
abbrev SB1 : Shape := ⟨1, ![64]⟩
abbrev SWo : Shape := ⟨2, ![2, 64]⟩
abbrev SBo : Shape := ⟨1, ![2]⟩
abbrev SOut : Shape := ⟨2, ![100000, 2]⟩
abbrev SOutT : Shape := ⟨2, ![2, 100000]⟩

/-- Hidden unit `k` of row `n`: the first affine layer, rectified. -/
def hidden (x : FVec Ideal SX .f32) (W1 : FVec Ideal SW1 .f32) (b1 : FVec Ideal SB1 .f32) (n : Fin 100000) (k : Fin 64) : EReal :=
  max ((∑ d : Fin 369, x (ix2 n d) * W1 (ix2 k d)) + b1 (ix1 k)) (Ideal.ofBits .f32 0x00000000#32)

/-- Output `c` of row `n`: the second affine layer over the hidden units. -/
def out (x : FVec Ideal SX .f32) (W1 : FVec Ideal SW1 .f32) (b1 : FVec Ideal SB1 .f32) (Wo : FVec Ideal SWo .f32)
    (bo : FVec Ideal SBo .f32) (n : Fin 100000) (c : Fin 2) : EReal :=
  (∑ k : Fin 64, hidden x W1 b1 n k * Wo (ix2 c k)) + bo (ix1 c)

/-- The network's result as a `[100000, 2]` array. -/
def net (x : FVec Ideal SX .f32) (W1 : FVec Ideal SW1 .f32) (b1 : FVec Ideal SB1 .f32) (Wo : FVec Ideal SWo .f32)
    (bo : FVec Ideal SBo .f32) : FVec Ideal SOut .f32 := fun i => out x W1 b1 Wo bo (i 0) (i 1)

/-- The same result laid out `[2, 100000]`. -/
def netT (x : FVec Ideal SX .f32) (W1 : FVec Ideal SW1 .f32) (b1 : FVec Ideal SB1 .f32) (Wo : FVec Ideal SWo .f32)
    (bo : FVec Ideal SBo .f32) : FVec Ideal SOutT .f32 := fun i => out x W1 b1 Wo bo (i 1) (i 0)

end Cert.Mlp

end
-- ==== Proof.ValueData.lean ====
/-
  The idealized kernel's proof data: what its arrays and staging buffers hold.

  The region finds the input transposed (`main_v0 = xᵀ`, `[369, 100000]`) and the two biases as columns. Its grid
  walks the 100000 columns in 49 slabs of 2048; the last slab and the last output block overhang the arrays by 352
  columns, so their transfers are cut at the array's end and the staging buffers' tails hold words nothing names. The
  proof data therefore state the slab's buffer and the output's buffer on the columns inside the array only: the
  slab's buffer holds its block of `xᵀ`, the output's holds block `t` of the network's `[2, 100000]` array
  `GT`, each filled out past the array's end with a word nothing reads. The other four windows are whole arrays.
-/
import proofs.«104592_g42580305772673_cont_8to1_b_1666_20_alg».proof.Proof.Gen.KernelIdeal.Frame
import proofs.«104592_g42580305772673_cont_8to1_b_1666_20_alg».proof.Proof.BodyRunIdeal
import proofs.«104592_g42580305772673_cont_8to1_b_1666_20_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open scoped BigOperators

namespace Cert.KernelIdeal.ValueProof

open Cert.KernelIdeal Cert.KernelIdeal.Gen Cert.KernelIdeal.BodyRun
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The arrays as the region finds them -/

/-- The slab's array is the input transposed. -/
theorem V_main_v0 (c : Dev nD) : (V m c main_v0 : S369x100000.Idx → EReal)
    = transpose S369x100000 [1, 0] (m ((c : Thread nD τ).loc main_arg0)) transposes_S100000x369_S369x100000_1_0 := by
  show StableHlo.after hostOps0 (fun b => m (c, b)) (Proc.devRef .tc main_v0) = _
  after_results

/-- The first bias, as a column. -/
theorem V_main_v1 (c : Dev nD) : (V m c main_v1 : S64x1.Idx → EReal)
    = shapeCast S64x1 (m ((c : Thread nD τ).loc main_arg2)) shapeCasts_S64_S64x1 := by
  show StableHlo.after hostOps0 (fun b => m (c, b)) (Proc.devRef .tc main_v1) = _
  after_results
  rfl

/-- The second bias, as a column. -/
theorem V_main_v2 (c : Dev nD) : (V m c main_v2 : S2x1.Idx → EReal)
    = shapeCast S2x1 (m ((c : Thread nD τ).loc main_arg4)) shapeCasts_S2_S2x1 := by
  show StableHlo.after hostOps0 (fun b => m (c, b)) (Proc.devRef .tc main_v2) = _
  after_results
  rfl

/-- Entry `(d, n)` of the slab's array is entry `(n, d)` of the input. -/
theorem xT_apply (c : Dev nD) (d : Fin 369) (n : Fin 100000) :
    (V m c main_v0 : S369x100000.Idx → EReal) (ix2 d n) = m ((c : Thread nD τ).loc main_arg0) (ix2 n d) := by
  rw [V_main_v0]; exact transpose_ix2_apply _ _ d n

/-- Entry `(k, 0)` of the first bias column is entry `k` of the bias. -/
theorem b1col_apply (c : Dev nD) (k : Fin 64) :
    (V m c main_v1 : S64x1.Idx → EReal) (ix2 k (0 : Fin 1)) = m ((c : Thread nD τ).loc main_arg2) (ix1 k) := by
  rw [V_main_v1]
  refine shapeCast_apply _ _ _ _ ?_
  rw [Shape.rowMajor_val_two]
  refine (Shape.rowMajor_val_one (d := ![64]) (ix1 k)).trans ?_
  show k.val = k.val * 1 + 0
  omega

/-- Entry `(o, 0)` of the second bias column is entry `o` of the bias. -/
theorem bocol_apply (c : Dev nD) (o : Fin 2) :
    (V m c main_v2 : S2x1.Idx → EReal) (ix2 o (0 : Fin 1)) = m ((c : Thread nD τ).loc main_arg4) (ix1 o) := by
  rw [V_main_v2]
  refine shapeCast_apply _ _ _ _ ?_
  rw [Shape.rowMajor_val_two]
  refine (Shape.rowMajor_val_one (d := ![2]) (ix1 o)).trans ?_
  show o.val = o.val * 1 + 0
  omega

/-! ## The network of the launch arrays, in the layout the grid writes -/

/-- The `[2, 100000]` array the run leaves in the kernel's result buffer. -/
abbrev GT (c : Dev nD) : Buf (Elt Ideal) ((c : Thread nD τ).loc main_v3) :=
  Cert.Mlp.netT (m ((c : Thread nD τ).loc main_arg0)) (m ((c : Thread nD τ).loc main_arg1)) (m ((c : Thread nD τ).loc main_arg2))
    (m ((c : Thread nD τ).loc main_arg3)) (m ((c : Thread nD τ).loc main_arg4))

/-! ## The pipeline's proof data -/

/-- The word the proof fills an overhanging buffer's tail with; nothing reads it. -/
abbrev zw : Elt Ideal .f32 := (0 : EReal)

/-- After the body at point `t`: each input's buffer holds its block (the slab's filled out past the array's end
    with a word nothing reads), and the output's holds block `t` of the network's array, filled out likewise. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => zw) (iblk m c 0 t)
    | ⟨1, _⟩ => iblk m c 1 t
    | ⟨2, _⟩ => iblk m c 2 t
    | ⟨3, _⟩ => iblk m c 3 t
    | ⟨4, _⟩ => iblk m c 4 t
    | ⟨5, _⟩ => win0_5.fill (grid0.coords t) (fun _ => zw) ((win0_5.blk t).view.read (Elt Ideal) (GT m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => zw) (iblk m c 0 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = win0_5.fill (grid0.coords t) (fun _ => zw) ((win0_5.blk t).view.read (Elt Ideal) (GT m c)) := by
  dsimp only [dats]

/-- The slab's buffer, fetched at every point, holds its block where the fetch landed and anything past it. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Where the windows' blocks sit

Every window's block index and cut, decided once over the 49 grid points: the slab and the output block of point
`t` start at column `2048·t` and keep the columns that lie inside the 100000; the other four windows are their
whole arrays at every point. -/

theorem idx_slab : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx_w1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_b1 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_wo : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_bo : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_out : ∀ t : Fin cfg0.N, win0_5.index t (0 : Fin 2) = 0 ∧ win0_5.index t (1 : Fin 2) = t.val :=
  (by decide +kernel : ∀ t : Fin grid0.N, win0_5.index t (0 : Fin 2) = 0 ∧ win0_5.index t (1 : Fin 2) = t.val)

/-- The slab's cut: all 369 rows, and as many columns as the output block's cut keeps, inside the array. -/
theorem cut_slab : ∀ t : Fin cfg0.N, win0_0.xsize (grid0.coords t) (0 : Fin 2) = 369
    ∧ win0_0.xsize (grid0.coords t) (1 : Fin 2) = win0_5.xsize (grid0.coords t) (1 : Fin 2) :=
  (by decide +kernel : ∀ t : Fin grid0.N, win0_0.xsize (grid0.coords t) (0 : Fin 2) = 369
    ∧ win0_0.xsize (grid0.coords t) (1 : Fin 2) = win0_5.xsize (grid0.coords t) (1 : Fin 2))
/-- The output block's cut: both rows, and columns that stay below 100000. -/
theorem cut_out : ∀ t : Fin cfg0.N, win0_5.xsize (grid0.coords t) (0 : Fin 2) = 2
    ∧ t.val * 2048 + win0_5.xsize (grid0.coords t) (1 : Fin 2) ≤ 100000 ∧ win0_5.xsize (grid0.coords t) (1 : Fin 2) ≤ 2048 :=
  (by decide +kernel : ∀ t : Fin grid0.N, win0_5.xsize (grid0.coords t) (0 : Fin 2) = 2
    ∧ t.val * 2048 + win0_5.xsize (grid0.coords t) (1 : Fin 2) ≤ 100000 ∧ win0_5.xsize (grid0.coords t) (1 : Fin 2) ≤ 2048)

/-! ## The blocks read at an entry -/

/-- The first weight matrix's block is the matrix. -/
theorem w1_apply (c : Dev nD) (t : Fin cfg0.N) (k : Fin 64) (d : Fin 369) :
    iblk m c 1 t (ix2 k d) = m ((c : Thread nD τ).loc main_arg1) (ix2 k d) := by
  unfold iblk
  rw [View.read_apply]
  show V m c main_arg1 (((cfg0.win 1).blk t).view.emb (ix2 k d)) = _
  rw [V_main_arg1]
  refine congrArg _ (funext fun a => Fin.ext ?_)
  match a with
  | ⟨0, _⟩ => show win0_1.index t 0 * 64 + 1 * k.val = k.val; rw [(idx_w1 t).1]; omega
  | ⟨1, _⟩ => show win0_1.index t 1 * 369 + 1 * d.val = d.val; rw [(idx_w1 t).2]; omega

end Cert.KernelIdeal.ValueProof

end
-- ==== Proof.Payload.lean ====
/-
  The kernel body's stored value at one entry of its `[2, 2048]` output block, at the ideal instance.

  The body narrows its `[369, 2048]` input slab and the weights to bf16 (the identity on extended reals), forms
  `W1 · slab` on the matrix unit into a zero accumulator (a plain sum over the 369 features), adds the bias column
  broadcast along the slab's columns, takes the maximum with zero, forms `W_out · hidden` (a plain sum over the 64
  hidden units) and adds the second bias column. Entry `(c, j)` therefore depends on column `j` of the slab only.
-/
import proofs.«104592_g42580305772673_cont_8to1_b_1666_20_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

/-! ## A bias column broadcast along the columns -/

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first product: `W1 · slab`, contracting the 369 features -/

/-- The left operand's row coordinate is the output's row. -/
theorem lhs_mm1_0 (i : S64x2048.Idx) (q : dot_S64x369_S369x2048_S64x2048_1_0_0_1_n_n.contr.Idx) :
    (dot_S64x369_S369x2048_S64x2048_1_0_0_1_n_n.lhsIdx i q 0).val = (i 0).val := by
  unfold DotDims.lhsIdx
  rw [dif_neg (show ¬(0 : Fin S64x369.rank) ∈ dot_S64x369_S369x2048_S64x2048_1_0_0_1_n_n.lhsBatch by decide), dif_pos (show (0 : Fin S64x369.rank) ∈ dot_S64x369_S369x2048_S64x2048_1_0_0_1_n_n.lhsNonContracting by decide)]
  rfl
/-- The left operand's column coordinate is the contraction position. -/
theorem lhs_mm1_1 (i : S64x2048.Idx) (q : dot_S64x369_S369x2048_S64x2048_1_0_0_1_n_n.contr.Idx) :
    (dot_S64x369_S369x2048_S64x2048_1_0_0_1_n_n.lhsIdx i q 1).val = (q ⟨0, by decide⟩).val :=
  dot_S64x369_S369x2048_S64x2048_1_0_0_1_n_n.lhsIdx_val_of_single rfl i q
/-- The right operand's row coordinate is the contraction position. -/
theorem rhs_mm1_0 (i : S64x2048.Idx) (q : dot_S64x369_S369x2048_S64x2048_1_0_0_1_n_n.contr.Idx) :
    (dot_S64x369_S369x2048_S64x2048_1_0_0_1_n_n.rhsIdx i q 0).val = (q ⟨0, by decide⟩).val :=
  dot_S64x369_S369x2048_S64x2048_1_0_0_1_n_n.rhsIdx_val_of_single rfl i q
/-- The right operand's column coordinate is the output's column. -/
theorem rhs_mm1_1 (i : S64x2048.Idx) (q : dot_S64x369_S369x2048_S64x2048_1_0_0_1_n_n.contr.Idx) :
    (dot_S64x369_S369x2048_S64x2048_1_0_0_1_n_n.rhsIdx i q 1).val = (i 1).val := by
  unfold DotDims.rhsIdx
  rw [dif_neg (show ¬(1 : Fin S369x2048.rank) ∈ dot_S64x369_S369x2048_S64x2048_1_0_0_1_n_n.rhsBatch by decide), dif_pos (show (1 : Fin S369x2048.rank) ∈ dot_S64x369_S369x2048_S64x2048_1_0_0_1_n_n.rhsNonContracting by decide)]
  rfl

/-- Entry `(k, j)` of the first product into the zero accumulator: the sum over the features. -/
theorem mm1_apply (A : FVec Ideal S64x369 .bf16) (B : FVec Ideal S369x2048 .bf16) (k : Fin 64) (j : Fin 2048) :
    matmul (F := Ideal) dot_S64x369_S369x2048_S64x2048_1_0_0_1_n_n none A B (constant (F := Ideal) S64x2048 .f32 0x00000000#32) (ix2 k j)
      = ∑ d : Fin 369, A (ix2 k d) * B (ix2 d j) := by
  simp only [matmul]
  rw [Ideal.matmul_constant_zero_apply, ← Equiv.sum_comp (contrEquiv1 dot_S64x369_S369x2048_S64x2048_1_0_0_1_n_n 369 rfl rfl).symm]
  refine Finset.sum_congr rfl fun d _ => ?_
  have hk := contrEquiv1_symm_val dot_S64x369_S369x2048_S64x2048_1_0_0_1_n_n 369 rfl rfl d
  have el : dot_S64x369_S369x2048_S64x2048_1_0_0_1_n_n.lhsIdx (ix2 k j) ((contrEquiv1 dot_S64x369_S369x2048_S64x2048_1_0_0_1_n_n 369 rfl rfl).symm d) = ix2 k d := funext fun a => Fin.ext (by
    match a with
    | ⟨0, _⟩ => exact lhs_mm1_0 _ _
    | ⟨1, _⟩ => exact (lhs_mm1_1 _ _).trans hk)
  have er : dot_S64x369_S369x2048_S64x2048_1_0_0_1_n_n.rhsIdx (ix2 k j) ((contrEquiv1 dot_S64x369_S369x2048_S64x2048_1_0_0_1_n_n 369 rfl rfl).symm d) = ix2 d j := funext fun a => Fin.ext (by
    match a with
    | ⟨0, _⟩ => exact (rhs_mm1_0 _ _).trans hk
    | ⟨1, _⟩ => exact rhs_mm1_1 _ _)
  rw [el, er]

/-! ## The second product: `W_out · hidden`, contracting the 64 hidden units -/

/-- The left operand's row coordinate is the output's row. -/
theorem lhs_mm2_0 (i : S2x2048.Idx) (q : dot_S2x64_S64x2048_S2x2048_1_0_0_1_n_n.contr.Idx) :
    (dot_S2x64_S64x2048_S2x2048_1_0_0_1_n_n.lhsIdx i q 0).val = (i 0).val := by
  unfold DotDims.lhsIdx
  rw [dif_neg (show ¬(0 : Fin S2x64.rank) ∈ dot_S2x64_S64x2048_S2x2048_1_0_0_1_n_n.lhsBatch by decide), dif_pos (show (0 : Fin S2x64.rank) ∈ dot_S2x64_S64x2048_S2x2048_1_0_0_1_n_n.lhsNonContracting by decide)]
  rfl
/-- The left operand's column coordinate is the contraction position. -/
theorem lhs_mm2_1 (i : S2x2048.Idx) (q : dot_S2x64_S64x2048_S2x2048_1_0_0_1_n_n.contr.Idx) :
    (dot_S2x64_S64x2048_S2x2048_1_0_0_1_n_n.lhsIdx i q 1).val = (q ⟨0, by decide⟩).val :=
  dot_S2x64_S64x2048_S2x2048_1_0_0_1_n_n.lhsIdx_val_of_single rfl i q
/-- The right operand's row coordinate is the contraction position. -/
theorem rhs_mm2_0 (i : S2x2048.Idx) (q : dot_S2x64_S64x2048_S2x2048_1_0_0_1_n_n.contr.Idx) :
    (dot_S2x64_S64x2048_S2x2048_1_0_0_1_n_n.rhsIdx i q 0).val = (q ⟨0, by decide⟩).val :=
  dot_S2x64_S64x2048_S2x2048_1_0_0_1_n_n.rhsIdx_val_of_single rfl i q
/-- The right operand's column coordinate is the output's column. -/
theorem rhs_mm2_1 (i : S2x2048.Idx) (q : dot_S2x64_S64x2048_S2x2048_1_0_0_1_n_n.contr.Idx) :
    (dot_S2x64_S64x2048_S2x2048_1_0_0_1_n_n.rhsIdx i q 1).val = (i 1).val := by
  unfold DotDims.rhsIdx
  rw [dif_neg (show ¬(1 : Fin S64x2048.rank) ∈ dot_S2x64_S64x2048_S2x2048_1_0_0_1_n_n.rhsBatch by decide), dif_pos (show (1 : Fin S64x2048.rank) ∈ dot_S2x64_S64x2048_S2x2048_1_0_0_1_n_n.rhsNonContracting by decide)]
  rfl

/-- Entry `(c, j)` of the second product into the zero accumulator: the sum over the hidden units. -/
theorem mm2_apply (A : FVec Ideal S2x64 .bf16) (B : FVec Ideal S64x2048 .bf16) (c : Fin 2) (j : Fin 2048) :
    matmul (F := Ideal) dot_S2x64_S64x2048_S2x2048_1_0_0_1_n_n none A B (constant (F := Ideal) S2x2048 .f32 0x00000000#32) (ix2 c j)
      = ∑ k : Fin 64, A (ix2 c k) * B (ix2 k j) := by
  simp only [matmul]
  rw [Ideal.matmul_constant_zero_apply, ← Equiv.sum_comp (contrEquiv1 dot_S2x64_S64x2048_S2x2048_1_0_0_1_n_n 64 rfl rfl).symm]
  refine Finset.sum_congr rfl fun k _ => ?_
  have hk := contrEquiv1_symm_val dot_S2x64_S64x2048_S2x2048_1_0_0_1_n_n 64 rfl rfl k
  have el : dot_S2x64_S64x2048_S2x2048_1_0_0_1_n_n.lhsIdx (ix2 c j) ((contrEquiv1 dot_S2x64_S64x2048_S2x2048_1_0_0_1_n_n 64 rfl rfl).symm k) = ix2 c k := funext fun a => Fin.ext (by
    match a with
    | ⟨0, _⟩ => exact lhs_mm2_0 _ _
    | ⟨1, _⟩ => exact (lhs_mm2_1 _ _).trans hk)
  have er : dot_S2x64_S64x2048_S2x2048_1_0_0_1_n_n.rhsIdx (ix2 c j) ((contrEquiv1 dot_S2x64_S64x2048_S2x2048_1_0_0_1_n_n 64 rfl rfl).symm k) = ix2 k j := funext fun a => Fin.ext (by
    match a with
    | ⟨0, _⟩ => exact (rhs_mm2_0 _ _).trans hk
    | ⟨1, _⟩ => exact rhs_mm2_1 _ _)
  rw [el, er]

/-! ## The stored value -/

/-- Entry `(c, j)` of what the body stores: the second layer over the rectified first layer of column `j`. -/
theorem pay_apply (v0 : Vec Ideal S369x2048 .f32) (v3 : Vec Ideal S64x369 .f32) (v6 : Vec Ideal S64x1 .f32)
    (v12 : Vec Ideal S2x64 .f32) (v16 : Vec Ideal S2x1 .f32) (c : Fin 2) (j : Fin 2048) :
    k0_pay1 (F := Ideal) v0 v3 v6 v12 v16 (ix2 c j)
      = (∑ k : Fin 64, max ((∑ d : Fin 369, v0 (ix2 d j) * v3 (ix2 k d)) + v6 (ix2 k (0 : Fin 1)))
            (Ideal.ofBits .f32 0x00000000#32) * v12 (ix2 c k)) + v16 (ix2 c (0 : Fin 1)) := by
  unfold k0_pay1
  -- the casts of a shape to itself drop out; the outer sum is the second product plus the broadcast column;
  -- under it the factors commute, the maximum is taken entry by entry, and the first product's factors commute
  rw [shapeCast_self v0, shapeCast_self v6, shapeCast_self v16]
  refine (addf_apply _ _ _).trans (congrArg₂ (· + ·) ?_ (broadcastTo_a1_ab_apply _ _ c j))
  refine (mm2_apply _ _ c j).trans (Finset.sum_congr rfl fun k _ => ?_)
  refine (mul_comm _ _).trans (congrArg (· * v12 (ix2 c k)) ?_)
  refine (maximumf_apply _ _ _).trans (congrArg₂ max ?_ rfl)
  refine (addf_apply _ _ _).trans (congrArg₂ (· + ·) ?_ (broadcastTo_a1_ab_apply _ _ k j))
  exact (mm1_apply _ _ k j).trans (Finset.sum_congr rfl fun d _ => mul_comm _ _)

end Cert.KernelIdeal.Pay

end
-- ==== Proof.ValueBody.lean ====
/-
  The idealized kernel's body obligation and its run.

  At point `t` the body finds the slab's buffer holding columns `2048·t …` of `xᵀ` where the fetch landed and
  anything past the array's end, and the four whole-array windows holding the weights and bias columns. Entry
  `(o, q)` of the block it stores reads column `q` of the slab's buffer only — the two matrix products contract
  the 369 features and the 64 hidden units, never the columns — so on the columns inside the array the stored block
  is block `t` of the network's `[2, 100000]` array, whatever the buffer's tail held (`leaves_out`). That is all
  the obligation of a cut window asks. The run is then the library's frame run around the region.
-/
import proofs.«104592_g42580305772673_cont_8to1_b_1666_20_alg».proof.Proof.ValueData
import proofs.«104592_g42580305772673_cont_8to1_b_1666_20_alg».proof.Proof.Payload

set_option maxRecDepth 16384

noncomputable section

open scoped BigOperators

namespace Cert.KernelIdeal.ValueProof

open Cert.KernelIdeal Cert.KernelIdeal.Gen Cert.KernelIdeal.BodyRun
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The input blocks read at an entry -/

/-- Entry `(k, 0)` of the first bias column's block. -/
theorem b1_apply (c : Dev nD) (t : Fin cfg0.N) (k : Fin 64) :
    iblk m c 2 t (ix2 k (0 : Fin 1)) = m ((c : Thread nD τ).loc main_arg2) (ix1 k) := by
  unfold iblk
  rw [View.read_apply]
  show (V m c main_v1 : S64x1.Idx → EReal) (((cfg0.win 2).blk t).view.emb (ix2 k (0 : Fin 1))) = _
  rw [← b1col_apply m c k]
  refine congrArg _ (funext fun a => Fin.ext ?_)
  match a with
  | ⟨0, _⟩ => show win0_2.index t 0 * 64 + 1 * k.val = k.val; rw [(idx_b1 t).1]; omega
  | ⟨1, _⟩ => show win0_2.index t 1 * 1 + 1 * 0 = 0; rw [(idx_b1 t).2]

/-- The second weight matrix's block is the matrix. -/
theorem wo_apply (c : Dev nD) (t : Fin cfg0.N) (o : Fin 2) (k : Fin 64) :
    iblk m c 3 t (ix2 o k) = m ((c : Thread nD τ).loc main_arg3) (ix2 o k) := by
  unfold iblk
  rw [View.read_apply]
  show V m c main_arg3 (((cfg0.win 3).blk t).view.emb (ix2 o k)) = _
  rw [V_main_arg3]
  refine congrArg _ (funext fun a => Fin.ext ?_)
  match a with
  | ⟨0, _⟩ => show win0_3.index t 0 * 2 + 1 * o.val = o.val; rw [(idx_wo t).1]; omega
  | ⟨1, _⟩ => show win0_3.index t 1 * 64 + 1 * k.val = k.val; rw [(idx_wo t).2]; omega

/-- Entry `(o, 0)` of the second bias column's block. -/
theorem bo_apply (c : Dev nD) (t : Fin cfg0.N) (o : Fin 2) :
    iblk m c 4 t (ix2 o (0 : Fin 1)) = m ((c : Thread nD τ).loc main_arg4) (ix1 o) := by
  unfold iblk
  rw [View.read_apply]
  show (V m c main_v2 : S2x1.Idx → EReal) (((cfg0.win 4).blk t).view.emb (ix2 o (0 : Fin 1))) = _
  rw [← bocol_apply m c o]
  refine congrArg _ (funext fun a => Fin.ext ?_)
  match a with
  | ⟨0, _⟩ => show win0_4.index t 0 * 2 + 1 * o.val = o.val; rw [(idx_bo t).1]; omega
  | ⟨1, _⟩ => show win0_4.index t 1 * 1 + 1 * 0 = 0; rw [(idx_bo t).2]

/-- A column of the slab's buffer that the fetch at point `t` filled holds row `2048·t + q` of the input,
    whatever the buffer held before. -/
theorem slab_apply (c : Dev nD) (t : Fin cfg0.N) (d0 : S369x2048.Idx → Elt Ideal .f32) (d : Fin 369) (q : Fin 2048)
    (hq : q.val < win0_0.xsize (grid0.coords t) (1 : Fin 2)) (hn : t.val * 2048 + q.val < 100000) :
    win0_0.fill (grid0.coords t) d0 (iblk m c 0 t) (ix2 d q)
      = m ((c : Thread nD τ).loc main_arg0) (ix2 (⟨t.val * 2048 + q.val, hn⟩ : Fin 100000) d) := by
  have hmoved : win0_0.moved (grid0.coords t) (ix2 d q) = true :=
    (win0_0.moved_iff _ _).mpr fun a => match a with
      | ⟨0, _⟩ => by show d.val < win0_0.xsize (grid0.coords t) (0 : Fin 2); rw [(cut_slab t).1]; exact d.isLt
      | ⟨1, _⟩ => hq
  unfold Window.fill
  rw [dif_pos hmoved]
  unfold iblk
  rw [View.read_apply]
  show (V m c main_v0 : S369x100000.Idx → EReal) _ = _
  rw [← xT_apply m c d ⟨t.val * 2048 + q.val, hn⟩]
  refine congrArg _ (funext fun a => Fin.ext ?_)
  match a with
  | ⟨0, _⟩ => show win0_0.index t 0 * 369 + 1 * d.val = d.val; rw [(idx_slab t).1]; omega
  | ⟨1, _⟩ => show win0_0.index t 1 * 2048 + 1 * q.val = t.val * 2048 + q.val; rw [(idx_slab t).2]; omega

/-! ## The stored block is the network's block -/

/-- An entry of the body's stored block whose slab column holds row `n` of the input is output `o` of row `n`. -/
theorem pay_eq_out (x : FVec Ideal Cert.Mlp.SX .f32) (W1 : FVec Ideal Cert.Mlp.SW1 .f32) (b1 : FVec Ideal Cert.Mlp.SB1 .f32)
    (Wo : FVec Ideal Cert.Mlp.SWo .f32) (bo : FVec Ideal Cert.Mlp.SBo .f32)
    (X0 : Vec Ideal S369x2048 .f32) (X1 : Vec Ideal S64x369 .f32) (X2 : Vec Ideal S64x1 .f32) (X3 : Vec Ideal S2x64 .f32)
    (X4 : Vec Ideal S2x1 .f32) (n : Fin 100000) (q : Fin 2048) (o : Fin 2)
    (h0 : ∀ d : Fin 369, X0 (ix2 d q) = x (ix2 n d)) (h1 : ∀ (k : Fin 64) (d : Fin 369), X1 (ix2 k d) = W1 (ix2 k d))
    (h2 : ∀ k : Fin 64, X2 (ix2 k (0 : Fin 1)) = b1 (ix1 k)) (h3 : ∀ k : Fin 64, X3 (ix2 o k) = Wo (ix2 o k))
    (h4 : X4 (ix2 o (0 : Fin 1)) = bo (ix1 o)) :
    k0_pay1 (F := Ideal) X0 X1 X2 X3 X4 (ix2 o q) = Cert.Mlp.out x W1 b1 Wo bo n o := by
  rw [Cert.KernelIdeal.Pay.pay_apply]
  unfold Cert.Mlp.out Cert.Mlp.hidden
  simp only [h0, h1, h2, h3, h4]

/-- On the columns inside the array, what the body stores is block `t` of the network's array, whatever the
    slab's buffer held past the array's end: entry `(o, q)` of the stored block reads column `q` of the slab's
    buffer, which the fetch filled with row `2048·t + q` of the input. -/
theorem leaves_out (c : Dev nD) (t : Fin cfg0.N) (d0 : S369x2048.Idx → Elt Ideal .f32) :
    win0_5.cut (grid0.coords t) (k0_pay1 (F := Ideal) (win0_0.fill (grid0.coords t) d0 (iblk m c 0 t)) (iblk m c 1 t)
        (iblk m c 2 t) (iblk m c 3 t) (iblk m c 4 t))
      = (win0_5.blk t).view.read (Elt Ideal) (GT m c) := by
  funext j
  have ho : (j 0).val < 2 := lt_of_lt_of_eq (j 0).isLt (cut_out t).1
  have hq' : (j 1).val < win0_5.xsize (grid0.coords t) (1 : Fin 2) := (j 1).isLt
  have hq : (j 1).val < 2048 := lt_of_lt_of_le hq' (cut_out t).2.2
  have hn : t.val * 2048 + (j 1).val < 100000 := by have := (cut_out t).2.1; omega
  have hx : win0_5.xinj (grid0.coords t) j = ix2 (⟨(j 0).val, ho⟩ : Fin 2) (⟨(j 1).val, hq⟩ : Fin 2048) :=
    funext fun a => match a with | ⟨0, _⟩ => rfl | ⟨1, _⟩ => rfl
  have hcut : ∀ X : S2x2048.Idx → EReal, win0_5.cut (grid0.coords t) X j
      = X (ix2 (⟨(j 0).val, ho⟩ : Fin 2) (⟨(j 1).val, hq⟩ : Fin 2048)) := fun X => congrArg X hx
  refine (hcut _).trans ?_
  refine (pay_eq_out (m ((c : Thread nD τ).loc main_arg0)) (m ((c : Thread nD τ).loc main_arg1)) (m ((c : Thread nD τ).loc main_arg2))
      (m ((c : Thread nD τ).loc main_arg3)) (m ((c : Thread nD τ).loc main_arg4))
      (win0_0.fill (grid0.coords t) d0 (iblk m c 0 t)) (iblk m c 1 t) (iblk m c 2 t) (iblk m c 3 t) (iblk m c 4 t)
      (⟨t.val * 2048 + (j 1).val, hn⟩ : Fin 100000) (⟨(j 1).val, hq⟩ : Fin 2048) (⟨(j 0).val, ho⟩ : Fin 2)
      (fun d => slab_apply m c t d0 d (⟨(j 1).val, hq⟩ : Fin 2048) (by rw [(cut_slab t).2]; exact hq') hn)
      (w1_apply m c t) (b1_apply m c t)
      (wo_apply m c t (⟨(j 0).val, ho⟩ : Fin 2)) (bo_apply m c t (⟨(j 0).val, ho⟩ : Fin 2))).trans ?_
  rw [View.read_apply]
  have e : (win0_5.blk t).view.emb j
      = (ix2 (⟨(j 0).val, ho⟩ : Fin 2) (⟨t.val * 2048 + (j 1).val, hn⟩ : Fin 100000) : S2x100000.Idx) :=
    funext fun a => Fin.ext (match a with
      | ⟨0, _⟩ => by
        show win0_5.index t 0 * 2 + 1 * (j 0).val = (j 0).val
        rw [(idx_out t).1]; omega
      | ⟨1, _⟩ => by
        show win0_5.index t 1 * 2048 + 1 * (j 1).val = t.val * 2048 + (j 1).val
        rw [(idx_out t).2]; omega)
  exact (congrArg (GT m c) e).symm

/-! ## The body obligation, at a generic point -/

/-- What the body is called with at point `t`: the invariant, what the core owes, and each window's current buffer
    at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: the two cut windows' buffers stated on the columns inside the array only, the whole-array
    windows' at their arrays. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare
        ((cfg0.win 5).fill (cfg0.grid.coords t) d ((cfg0.win 5).cut (cfg0.grid.coords t) ((dats m 0 c).after 5 t)))))

/-- On the columns inside the array the proof data's slab buffer is the slab's block, -/
theorem cut_after0_0 (c : Dev nD) (t : Fin cfg0.N) :
    (cfg0.win 0).cut (cfg0.grid.coords t) ((dats m 0 c).after 0 t) = iblk m c 0 t := by
  rw [after0_0]; exact win0_0.cut_fill _ _ _
/-- and its output buffer is block `t` of the network's array. -/
theorem cut_after0_5 (c : Dev nD) (t : Fin cfg0.N) :
    (cfg0.win 5).cut (cfg0.grid.coords t) ((dats m 0 c).after 5 t) = (win0_5.blk t).view.read (Elt Ideal) (GT m c) := by
  rw [after0_5]; exact win0_5.cut_fill _ _ _

/-- The body at any point: it leaves the inputs' buffers as it found them and, in the output's, a block that on the
    columns inside the array is the network's (`leaves_out`); past the array's end that block is its own filler. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    cut_after0_0, cut_after0_5, after0_1, after0_2, after0_3, after0_4]
  iintro ⟨HΦ, Ho, ⟨%d0, H0⟩, ⟨%d1, H1⟩, ⟨%d2, H2⟩, ⟨%d3, H3⟩, ⟨%d4, H4⟩, ⟨%d5, H5⟩⟩
  iapply (sound_kernel (F := Ideal) c Set.univ (grid0.coords t) _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  iexists (k0_pay1 (F := Ideal) (win0_0.fill (grid0.coords t) d0 (iblk m c 0 t)) (iblk m c 1 t) (iblk m c 2 t) (iblk m c 3 t) (iblk m c 4 t))
  rw [← leaves_out m c t d0, Window.fill_cut]
  iexact H5

/-- The library's body obligation, each overhanging window stated on the part its transfers move. -/
theorem body_obligation (c : Dev nD) : BodyObligationLoose (dats m 0 c) (defs₀ (F := Ideal)) Variants.none () Set.univ := fun t => by
  rw [bigSep_W0, bigSep_W0]
  exact sound_body m c t

/-! ## The run -/

-- the launch theorem's implicit arguments are found by unifying its conclusion with this one, which takes unfolding
-- plain definitions in a metavariable's type
set_option backward.isDefEq.respectTransparency.types false in
/-- Every weakly fair execution of @main terminates; the pipeline's arrays end at what the library computes from the
    proof data, the closing transpose's result at that operation applied to them, every other buffer as launched. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

end Cert.KernelIdeal.ValueProof

end
-- ==== Proof.ValueFinal.lean ====
/-
  The idealized kernel's result: after the run its result buffer holds the network of the launch arrays.

  Point `t` writes back, cut at the array's end, block `t` of the network's `[2, 100000]` array; the 49 blocks
  cover the 100000 columns (column `n` lies in block `n / 2048`), so the kernel's output array ends holding that
  array whole, and the closing transpose lays it out `[100000, 2]`.
-/
import proofs.«104592_g42580305772673_cont_8to1_b_1666_20_alg».proof.Proof.ValueData
import proofs.«104592_g42580305772673_cont_8to1_b_1666_20_alg».proof.Proof.Payload
import proofs.«104592_g42580305772673_cont_8to1_b_1666_20_alg».proof.Proof.ValueBody

set_option maxRecDepth 16384

noncomputable section

open scoped BigOperators

namespace Cert.KernelIdeal.ValueProof

open Cert.KernelIdeal Cert.KernelIdeal.Gen Cert.KernelIdeal.BodyRun
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The write-backs cover the output array -/

/-- What point `t` writes back is block `t` of the network's array. -/
theorem flushed_out (c : Dev nD) (t : Fin cfg0.N) :
    (dats m 0 c).flushed 5 t = ((cfg0.win 5).blk t).view.read (Elt Ideal) (GT m c) := by
  show (cfg0.win 5).cut (grid0.coords t) ((dats m 0 c).after 5 t) = _
  rw [after0_5]
  exact win0_5.cut_fill _ _ _

/-- An index of the array is in point `t`'s block iff each coordinate lies in the block's range on its axis, the
    range cut at the array's end. -/
theorem mem_blk_out (t : Fin cfg0.N) (i : S2x100000.Idx) :
    i ∈ ((cfg0.win 5).blk t).view.set ↔ ∀ a : Fin 2, win0_5.index t a * S2x2048.size a ≤ (i a).val
      ∧ (i a).val < win0_5.index t a * S2x2048.size a + win0_5.xsize (grid0.coords t) a := by
  show i ∈ ((View.whole main_v3).slice (win0_5.rect t)).set ↔ _
  rw [View.set_slice_whole, Rect.mem_set_unit]
  exact Iff.rfl

/-- The cut keeps the whole block or reaches the array's end. -/
theorem reach_out : ∀ t : Fin cfg0.N, 2048 ≤ win0_5.xsize (grid0.coords t) (1 : Fin 2)
    ∨ 100000 ≤ t.val * 2048 + win0_5.xsize (grid0.coords t) (1 : Fin 2) :=
  (by decide +kernel : ∀ t : Fin grid0.N, 2048 ≤ win0_5.xsize (grid0.coords t) (1 : Fin 2)
    ∨ 100000 ≤ t.val * 2048 + win0_5.xsize (grid0.coords t) (1 : Fin 2))

/-- Column `n` lies in the block of point `n / 2048`, which writes it back. -/
theorem cover_out (i : S2x100000.Idx) :
    ∃ t : Fin cfg0.N, (cfg0.win 5).flush t = true ∧ i ∈ ((cfg0.win 5).blk t).view.set := by
  have hi0 : (i 0).val < 2 := (i 0).isLt
  have hi1 : (i 1).val < 100000 := (i 1).isLt
  have hN : cfg0.N = 49 := N_0
  have ht : (i 1).val / 2048 < cfg0.N := by rw [hN]; omega
  refine ⟨⟨(i 1).val / 2048, ht⟩, flush0_5 _, ?_⟩
  rw [mem_blk_out]
  obtain ⟨e0, e1⟩ := idx_out ⟨(i 1).val / 2048, ht⟩
  obtain ⟨c0, c1, c2⟩ := cut_out ⟨(i 1).val / 2048, ht⟩
  have r := reach_out ⟨(i 1).val / 2048, ht⟩
  intro a
  match a with
  | ⟨0, _⟩ =>
    show win0_5.index ⟨(i 1).val / 2048, ht⟩ (0 : Fin 2) * 2 ≤ (i 0).val
      ∧ (i 0).val < win0_5.index ⟨(i 1).val / 2048, ht⟩ (0 : Fin 2) * 2 + win0_5.xsize (grid0.coords ⟨(i 1).val / 2048, ht⟩) (0 : Fin 2)
    rw [e0, c0]; omega
  | ⟨1, _⟩ =>
    show win0_5.index ⟨(i 1).val / 2048, ht⟩ (1 : Fin 2) * 2048 ≤ (i 1).val
      ∧ (i 1).val < win0_5.index ⟨(i 1).val / 2048, ht⟩ (1 : Fin 2) * 2048 + win0_5.xsize (grid0.coords ⟨(i 1).val / 2048, ht⟩) (1 : Fin 2)
    rw [e1]
    have e : (⟨(i 1).val / 2048, ht⟩ : Fin cfg0.N).val = (i 1).val / 2048 := rfl
    rw [e] at c1 r ⊢
    omega

/-- The kernel's output array after the last write-back is the network's `[2, 100000]` array. -/
theorem final_out (c : Dev nD) : (dats m 0 c).arrAt 5 cfg0.N = GT m c :=
  (dats m 0 c).arrAt_eq_of_cover 5 (GT m c) (fun t _ => flushed_out m c t) cover_out

/-- The closing transpose's result is the network's `[100000, 2]` array. -/
theorem tail_out (c : Dev nD) :
    (Pipeline.afterTail₀ cfgs (dats m) 0 (V0 m) [hostOps1] c main_v4 : S100000x2.Idx → EReal)
      = Cert.Mlp.net (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v4) = _
  after_results
  -- the transpose is applied to the kernel's output array, which holds the network's `[2, 100000]` array; entry
  -- `(n, o)` of the transpose is entry `(o, n)` of that array, and both layouts read output `o` of row `n`
  have hA : (Pipeline.withArrays (cfgs 0).spec c (V0 m c) (fun w => (dats m 0 c).arrAt w (cfgs 0).N) (Proc.devRef .tc main_v3)
      : S2x100000.Idx → EReal) = GT m c :=
    (Pipeline.withArrays_arr spec0 launch0.win.arr_inj c _ _ 5).trans (final_out m c)
  refine (congrArg (fun x : S2x100000.Idx → EReal => transpose S100000x2 [1, 0] x transposes_S2x100000_S100000x2_1_0) hA).trans ?_
  funext i
  obtain ⟨n, o, rfl⟩ : ∃ (n : Fin 100000) (o : Fin 2), i = ix2 n o := ⟨i 0, i 1, eq_ix2 i⟩
  refine (transpose_ix2_apply _ _ n o).trans ?_
  rfl

/-- Every weakly fair execution of the idealized kernel's @main terminates with its result at the network of the
    launch arrays and the five arguments unchanged. -/
theorem run : θ_run defs (onTc (τ := τ) (main (F := Ideal))) ⟨m, fun _ => 0, ρ⟩ (fun r => ∀ c : Dev nD,
      r.2.mem ((c.tc : Thread nD τ).loc main_v4)
        = Cert.Mlp.net (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  -- the result buffer is no array of the pipeline, so the run leaves it at the closing transpose's result; the
  -- first, third and fifth arguments likewise stay as launched, and the two weight matrices are input arrays
  exact (θ_run defs _ _).mono (fun _ h c =>
    ⟨((h c).2 main_v4 (Pipeline.mem_restRefs_of main_v4 (by decide) (by decide))).trans (tail_out m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.ValueProof

end
-- ==== Proof.RefSide.lean ====
/-
  The reference's result is the network `Cert.Mlp.net` of its arguments.

  The reference program is thirteen host operations: `x · W1ᵀ` by a `dot_general` contracting the 369 features,
  the bias row broadcast over the 100000 rows and added, the maximum with a broadcast zero, then `· W_outᵀ` by a
  second `dot_general` contracting the 64 hidden units and the second bias row added. Read at an index `(n, c)`
  each `dot_general` is a plain sum over its one contracted axis (the ideal instance rounds nothing), a transpose
  swaps the two coordinates and a broadcast of a row reads the row's entry: the result is `Cert.Mlp.out … n c`.
-/
import proofs.«104592_g42580305772673_cont_8to1_b_1666_20_alg».proof.Defs
import proofs.«104592_g42580305772673_cont_8to1_b_1666_20_alg».proof.Proof.Gen.ReferenceIdeal.Run
import proofs.«104592_g42580305772673_cont_8to1_b_1666_20_alg».proof.Proof.Gen.ReferenceIdeal.Read
import proofs.«104592_g42580305772673_cont_8to1_b_1666_20_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.ValueIdx

/-! ## The composed index maps at coordinates

Each stage reads its operands at an index computed from the result's index. At a result index `(n, k)` (or
`(n, c)`) and a contracted position these composites are plain coordinate pairs. -/

/-- First product, left operand: row `n` of `x` at feature `d`. -/
theorem lidx_first (n : Fin 100000) (k : Fin 64) (d : Fin 369) :
    Read.lidx_main_v1 (ix2 n k) d = ix2 n d :=
  funext fun a => Fin.ext (by match a with | ⟨0, _⟩ => rfl | ⟨1, _⟩ => rfl)

/-- First product, right operand: the transposed weight at `(d, k)` is `W1` at `(k, d)`. -/
theorem ridx_first (n : Fin 100000) (k : Fin 64) (d : Fin 369) :
    Read.idx_main_v0 (Read.ridx_main_v1 (ix2 n k) d) = ix2 k d :=
  funext fun a => Fin.ext (by match a with | ⟨0, _⟩ => rfl | ⟨1, _⟩ => rfl)

/-- The first bias row broadcast over the rows: entry `(n, k)` is `b1` at `k`. -/
theorem bidx_first (n : Fin 100000) (k : Fin 64) :
    Read.idx_main_v2 (Read.idx_main_v3 (ix2 n k)) = ix1 k :=
  funext fun a => Fin.ext (by match a with | ⟨0, _⟩ => rfl)

/-- Second product, left operand: row `n` of the hidden layer at unit `k`. -/
theorem lidx_second (n : Fin 100000) (c : Fin 2) (k : Fin 64) :
    Read.lidx_main_v8 (ix2 n c) k = ix2 n k :=
  funext fun a => Fin.ext (by match a with | ⟨0, _⟩ => rfl | ⟨1, _⟩ => rfl)

/-- Second product, right operand: the transposed weight at `(k, c)` is `W_out` at `(c, k)`. -/
theorem ridx_second (n : Fin 100000) (c : Fin 2) (k : Fin 64) :
    Read.idx_main_v7 (Read.ridx_main_v8 (ix2 n c) k) = ix2 c k :=
  funext fun a => Fin.ext (by match a with | ⟨0, _⟩ => rfl | ⟨1, _⟩ => rfl)

/-- The second bias row broadcast over the rows: entry `(n, c)` is `b_out` at `c`. -/
theorem bidx_second (n : Fin 100000) (c : Fin 2) :
    Read.idx_main_v9 (Read.idx_main_v10 (ix2 n c)) = ix1 c :=
  funext fun a => Fin.ext (by match a with | ⟨0, _⟩ => rfl)

/-! ## The two layers at an index -/

/-- The rectified first layer at `(n, k)`: the sum over the 369 features of `x[n, d] · W1[k, d]`, plus `b1[k]`,
    cut below at the zero word, which is hidden unit `k` of row `n`. -/
theorem hidden_eq (x : FVec Ideal S100000x369 .f32) (W1 : FVec Ideal S64x369 .f32) (b1 : FVec Ideal S64 .f32)
    (n : Fin 100000) (k : Fin 64) :
    Read.val_main_v6 (F := Ideal) x W1 b1 (ix2 n k) = Cert.Mlp.hidden x W1 b1 n k := by
  rw [Read.val_main_v6_apply, Read.val_main_v4_apply, Read.val_main_v1_apply, Read.val_main_v3_apply,
    Read.val_main_v2_apply, Read.val_main_v5_apply, Read.val_main_cst_apply]
  simp only [Read.val_main_v0_apply, lidx_first, ridx_first, bidx_first, Ideal.addf_def, Ideal.maximumf_def,
    Ideal.ofBits_def]
  rfl

/-- The reference's composed term, at the ideal instance, is the network of its five arguments. -/
theorem ref_eq (x : FVec Ideal S100000x369 .f32) (W1 : FVec Ideal S64x369 .f32) (b1 : FVec Ideal S64 .f32)
    (Wo : FVec Ideal S2x64 .f32) (bo : FVec Ideal S2 .f32) :
    addf (Host.dotGeneral (F := Ideal) dot_S100000x64_S64x2_S100000x2_1_0_0_1_n_n none
        (maximumf (addf (Host.dotGeneral (F := Ideal) dot_S100000x369_S369x64_S100000x64_1_0_0_1_n_n none x
              (transpose S369x64 [1, 0] W1 transposes_S64x369_S369x64_1_0))
            (broadcastInDim S100000x64 ![0, 1] bcast_S1x64_S100000x64_0_1 (broadcastInDim S1x64 ![1] bcast_S64_S1x64_1 b1)))
          (broadcastInDim S100000x64 ![] bcast_S_S100000x64 (constant (F := Ideal) S_ .f32 0x00000000#32)))
        (transpose S64x2 [1, 0] Wo transposes_S2x64_S64x2_1_0))
      (broadcastInDim S100000x2 ![0, 1] bcast_S1x2_S100000x2_0_1 (broadcastInDim S1x2 ![1] bcast_S2_S1x2_1 bo))
    = Cert.Mlp.net x W1 b1 Wo bo := by
  rw [Read.val_main_v11_eq (F := Ideal) x W1 b1 Wo bo]
  funext i
  obtain ⟨n, c, rfl⟩ : ∃ (n : Fin 100000) (c : Fin 2), i = ix2 n c := ⟨i 0, i 1, eq_ix2 i⟩
  rw [Read.val_main_v11_apply, Read.val_main_v8_apply, Read.val_main_v10_apply, Read.val_main_v9_apply]
  simp only [Read.val_main_v7_apply, lidx_second, ridx_second, bidx_second, hidden_eq, Ideal.addf_def]
  rfl

end Cert.ReferenceIdeal.RefValue

end
-- ==== Proof.lean ====
/-
  The certificate of a two-layer perceptron kernel against its jnp reference, over the extended reals.

  Both programs compute, for each of the 100000 rows `n` of `x` and each of the two outputs `c`,
  `∑ k, max (∑ d, x[n,d] · W1[k,d] + b1[k]) 0 · W_out[c,k] + b_out[c]` (`Cert.Mlp.net`). The reference does it with
  two `dot_general`s on the whole arrays. The kernel works in the transposed frame: its grid walks the columns of
  `xᵀ` in 49 slabs of 2048, each point forming `W1 · slab`, the bias, the rectifier and `W_out · hidden` on the
  matrix unit after narrowing to bf16 (the identity on extended reals), and a closing transpose restores the layout.
  The products' factors come in the other order than the reference's; multiplication of extended reals commutes, and
  no finiteness is needed anywhere. The last slab overhangs the arrays: its staging buffer's tail holds words nothing
  names, which reach only output columns that the cut write-back never writes.

  The three frames: the word-level kernel's says nothing of its result (the matrix unit is opaque there); the idealized
  kernel's and the reference's are their value runs with the result dropped. The ideal pass rewrote nothing, so
  `preserves` is trivial.
-/
import proofs.«104592_g42580305772673_cont_8to1_b_1666_20_alg».proof.Defs
import proofs.«104592_g42580305772673_cont_8to1_b_1666_20_alg».proof.Proof.Gen.Kernel
import proofs.«104592_g42580305772673_cont_8to1_b_1666_20_alg».proof.Proof.Gen.KernelIdeal
import proofs.«104592_g42580305772673_cont_8to1_b_1666_20_alg».proof.Proof.Gen.ReferenceIdeal
import proofs.«104592_g42580305772673_cont_8to1_b_1666_20_alg».proof.Proof.Gen.Pre_finite_inputs
import proofs.«104592_g42580305772673_cont_8to1_b_1666_20_alg».proof.Proof.FrameBits
import proofs.«104592_g42580305772673_cont_8to1_b_1666_20_alg».proof.Proof.ValueFinal
import proofs.«104592_g42580305772673_cont_8to1_b_1666_20_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.FrameProof.frame (F := Bits) m ρ

/-- The idealized kernel runs and leaves its arguments as launched: its value run, the result dropped. -/
theorem frame_ki : Cert.frame_KernelIdeal := fun m ρ _ =>
  (θ_run Cert.KernelIdeal.defs _ _).mono (fun _ h c => (h c).2) (Cert.KernelIdeal.ValueProof.run m ρ)

/-- The reference runs and leaves its arguments as launched: its value run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the five arguments both idealized programs end with the network of those arguments. -/
theorem algebraic : Cert.algebraic_KernelIdeal_ReferenceIdeal := by
  intro m ρ m' ρ' _ hagree
  refine ⟨fun c => Cert.Mlp.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.ValueProof.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.ref_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
